-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000 : Shape := ⟨2, ![8, 2000]⟩
abbrev S2000000 : Shape := ⟨1, ![2000000]⟩
abbrev S2000x128 : Shape := ⟨2, ![2000, 128]⟩
abbrev S128x128 : Shape := ⟨2, ![128, 128]⟩
abbrev S128 : Shape := ⟨1, ![128]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : IVec S2000000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2000000 32 := broadcastInDim S2000000 ![] bcast_S_S2000000 main_c_6
  let main_v20 : IVec S2000000 1 := cmpi .sge main_arg3 main_v19
  let main_c_7 : IVec S_ 1 := constantI S_ 1 1#1
  let main_v21 : IVec S_ 1 := (fun x v => Host.reduce IntOp.andi x v reducesTo_S2000000_S_d0 h_S_) main_v20 main_c_7
  let main_v22 : IVec S_ 1 := andi main_v18 main_v21
  let main_c_8 : IVec S_ 32 := constantI S_ 32 2000#32
  let main_v23 : IVec S2000000 32 := broadcastInDim S2000000 ![] bcast_S_S2000000 main_c_8
  let main_v24 : IVec S2000000 1 := cmpi .slt main_arg3 main_v23
  let main_c_9 : IVec S_ 1 := constantI S_ 1 1#1
  let main_v25 : IVec S_ 1 := (fun x v => Host.reduce IntOp.andi x v reducesTo_S2000000_S_d0 h_S_) main_v24 main_c_9
  let main_v26 : IVec S_ 1 := andi main_v22 main_v25
  main_v26

def fn {F : FTy → Type} [FloatOps F] (main_arg0 : IVec S8x2000 32) (main_arg1 : IVec S2000000 32) (main_arg2 : IVec S2000000 32) (main_arg3 : IVec S2000000 32) (main_arg4 : FVec F S2000000 .f32) (main_arg5 : FVec F S2000x128 .f32) (main_arg6 : FVec F S128x128 .f32) (main_arg7 : FVec F S128 .f32) : IVec S_ 1 :=
  let main_v0 : FVec F S2000000 .f32 := Host.absf main_arg4
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000x128 .f32 := Host.absf main_arg5
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_v13 main_v16
-- ==== Kernel.lean ====
abbrev S8x2000 : Shape := ⟨2, ![8, 2000]⟩
abbrev S2000000 : Shape := ⟨1, ![2000000]⟩
abbrev S2000x128 : Shape := ⟨2, ![2000, 128]⟩
abbrev S128x128 : Shape := ⟨2, ![128, 128]⟩
abbrev S128 : Shape := ⟨1, ![128]⟩
abbrev S_ : Shape := ⟨0, ![]⟩
abbrev S2000896 : Shape := ⟨1, ![2000896]⟩
abbrev S1x2000896 : Shape := ⟨2, ![1, 2000896]⟩
abbrev S2048x128 : Shape := ⟨2, ![2048, 128]⟩
abbrev S1x128 : Shape := ⟨2, ![1, 128]⟩
abbrev S2000896x128 : Shape := ⟨2, ![2000896, 128]⟩
abbrev S1x2048 : Shape := ⟨2, ![1, 2048]⟩
abbrev S2048x1 : Shape := ⟨2, ![2048, 1]⟩
abbrev S2048x2048 : Shape := ⟨2, ![2048, 2048]⟩
abbrev S16000x128 : Shape := ⟨2, ![16000, 128]⟩
abbrev S2000896x1 : Shape := ⟨2, ![2000896, 1]⟩
abbrev S8x2000x128 : Shape := ⟨3, ![8, 2000, 128]⟩

abbrev nBuf : Space → Nat
  | .hbm => 42
  | .vmem => 11
  | .smem => 0
  | _ => 0

abbrev bufTy : (tb : Table) → Fin (tcTables nBuf tb) → BufTy
  | .hbm, ⟨0, _⟩ => ⟨S8x2000, .i32⟩
  | .hbm, ⟨1, _⟩ => ⟨S2000000, .i32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S2000x128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S2000896, .i32⟩
  | .hbm, ⟨11, _⟩ => ⟨S_, .f32⟩
  | .hbm, ⟨12, _⟩ => ⟨S_, .f32⟩
  | .hbm, ⟨13, _⟩ => ⟨S2000896, .f32⟩
  | .hbm, ⟨14, _⟩ => ⟨S_, .i32⟩
  | .hbm, ⟨15, _⟩ => ⟨S_, .i32⟩
  | .hbm, ⟨16, _⟩ => ⟨S2000896, .i32⟩
  | .hbm, ⟨17, _⟩ => ⟨S_, .i32⟩
  | .hbm, ⟨18, _⟩ => ⟨S_, .i32⟩
  | .hbm, ⟨19, _⟩ => ⟨S2000896, .i32⟩
  | .hbm, ⟨20, _⟩ => ⟨S1x2000896, .i32⟩
  | .hbm, ⟨21, _⟩ => ⟨S1x2000896, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S1x128, .f32⟩
  | .hbm, ⟨26, _⟩ => ⟨S2048x128, .bf16⟩
  | .hbm, ⟨27, _⟩ => ⟨S2000896x128, .bf16⟩
  | .hbm, ⟨28, _⟩ => ⟨S2000896x128, .f32⟩
  | .hbm, ⟨29, _⟩ => ⟨S_, .f32⟩
  | .hbm, ⟨30, _⟩ => ⟨S16000x128, .f32⟩
  | .hbm, ⟨31, _⟩ => ⟨S2000896x1, .i32⟩
  | .hbm, ⟨32, _⟩ => ⟨S16000x128, .f32⟩
  | .hbm, ⟨33, _⟩ => ⟨S_, .f32⟩
  | .hbm, ⟨34, _⟩ => ⟨S16000x128, .f32⟩
  | .hbm, ⟨35, _⟩ => ⟨S2000896x1, .i32⟩
  | .hbm, ⟨36, _⟩ => ⟨S16000x128, .f32⟩
  | .hbm, ⟨37, _⟩ => ⟨S16000x128, .f32⟩
  | .hbm, ⟨38, _⟩ => ⟨S_, .f32⟩
  | .hbm, ⟨39, _⟩ => ⟨S16000x128, .f32⟩
  | .hbm, ⟨40, _⟩ => ⟨S16000x128, .f32⟩
  | .hbm, ⟨41, _⟩ => ⟨S8x2000x128, .f32⟩
  | .local _ .vmem, ⟨0, _⟩ => ⟨S2048x128, .f32⟩
  | .local _ .vmem, ⟨1, _⟩ => ⟨S128x128, .f32⟩
  | .local _ .vmem, ⟨2, _⟩ => ⟨S1x128, .f32⟩
  | .local _ .vmem, ⟨3, _⟩ => ⟨S2048x128, .bf16⟩
  | .local _ .vmem, ⟨4, _⟩ => ⟨S2048x128, .bf16⟩
  | .local _ .vmem, ⟨5, _⟩ => ⟨S1x2048, .i32⟩
  | .local _ .vmem, ⟨6, _⟩ => ⟨S1x2048, .i32⟩
  | .local _ .vmem, ⟨7, _⟩ => ⟨S1x2048, .f32⟩
  | .local _ .vmem, ⟨8, _⟩ => ⟨S1x2048, .f32⟩
  | .local _ .vmem, ⟨9, _⟩ => ⟨S2048x128, .bf16⟩
  | .local _ .vmem, ⟨10, _⟩ => ⟨S2048x128, .bf16⟩
  | _, _ => ⟨S8x2000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_v1 : Ref sig .tc := ⟨.hbm, 13, rfl⟩
abbrev main_c_0 : Ref sig .tc := ⟨.hbm, 14, rfl⟩
abbrev main_call2_v0 : Ref sig .tc := ⟨.hbm, 15, rfl⟩
abbrev main_v2 : Ref sig .tc := ⟨.hbm, 16, rfl⟩
abbrev main_c_1 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call4_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call5_cst : Ref sig .tc := ⟨.hbm, 38, rfl⟩
abbrev main_call5_v0 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![977], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S2000000_S2000896_08960 : S2000000.Pads (![0] : Fin 1 → Nat) ![896] ![0] S2000896
  h_S_ : 0 < S_.numel
  shapeCasts_S2000896_S1x2000896 : S2000896.ShapeCasts S1x2000896
  pads_S2000x128_S2048x128_0480_000 : S2000x128.Pads (![0, 0] : Fin 2 → Nat) ![48, 0] ![0, 0] S2048x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2048x128 : S1x128.Broadcasts S2048x128
  iota_S2048x128_d0_w32 : S2048x128.Iotas .tc 32 [0]
  packedbf16_S2048x128_S2048x128_0_0 : (Rect.unit (s := S2048x128) ![0, 0] S2048x128.size inb_S2048x128_S2048x128_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S1x2048_p1_0_S2048x1 : S1x2048.Transposes [1, 0] S2048x1
  iota_S2048x2048_d1_w32 : S2048x2048.Iotas .tc 32 [1]
  broadcasts_S2048x1_S2048x2048 : S2048x1.Broadcasts S2048x2048
  natLt_1_32 : 1 < 32
  broadcasts_S2048x1_S2048x128 : S2048x1.Broadcasts S2048x128
  bcast_S_S16000x128 : S_.BroadcastsInDim S16000x128 (![] : Fin 0 → Fin S16000x128.rank)
  bcast_S2000896_S2000896x1_0 : S2000896.BroadcastsInDim S2000896x1 (![0] : Fin 1 → Fin S2000896x1.rank)
  shapeCasts_S16000x128_S8x2000x128 : S16000x128.ShapeCasts S8x2000x128
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  scatter_S16000x128_S2000896x1_S2000896x128_1_0_0_1_wf : ScatterDims.WF S16000x128 S2000896x1 S2000896x128 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .bf16 = 32 ∨ (Rect.block (s := S2048x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2000896.size a
  hwx1_1 : ∀ i : grid1.Coords, EltTy.bits .i32 = 32 ∨ (Rect.block (s := S1x2000896) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2000896.size a
  hwx1_2 : ∀ i : grid1.Coords, EltTy.bits .f32 = 32 ∨ (Rect.block (s := S1x2000896) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2000896x128.size a
  hwx1_3 : ∀ i : grid1.Coords, EltTy.bits .bf16 = 32 ∨ (Rect.block (s := S2000896x128) S2048x128.size (cc1_transform_3 i) (hinb1_3 i)).WholeWords (EltTy.packing .bf16)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def scatter_S16000x128_S2000896x1_S2000896x128_1_0_0_1 : ScatterDims S16000x128 S2000896x1 S2000896x128 where
  updateWindowDims := [1]
  insertedWindowDims := [0]
  scatterDimsToOperandDims := [0]
  indexVectorDim := 1
  wf := scatter_S16000x128_S2000896x1_S2000896x128_1_0_0_1_wf

abbrev win0_0 : Pipeline.Window sig grid0 :=
  Pipeline.Window.ofSpec (Memref.whole main_v6) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2000 : Shape := ⟨2, ![8, 2000]⟩
abbrev S2000000 : Shape := ⟨1, ![2000000]⟩
abbrev S2000x128 : Shape := ⟨2, ![2000, 128]⟩
abbrev S128x128 : Shape := ⟨2, ![128, 128]⟩
abbrev S128 : Shape := ⟨1, ![128]⟩
abbrev S_ : Shape := ⟨0, ![]⟩
abbrev S2000000x1 : Shape := ⟨2, ![2000000, 1]⟩
abbrev S2000000x128 : Shape := ⟨2, ![2000000, 128]⟩
abbrev S1x128 : Shape := ⟨2, ![1, 128]⟩
abbrev S16000x128 : Shape := ⟨2, ![16000, 128]⟩
abbrev S8x2000x128 : Shape := ⟨3, ![8, 2000, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x2000, .i32⟩
  | .hbm, ⟨1, _⟩ => ⟨S2000000, .i32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S2000x128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x128, .f32⟩
  | .hbm, ⟨17, _⟩ => ⟨S128x128, .f32⟩
  | .hbm, ⟨18, _⟩ => ⟨S2000000x128, .f32⟩
  | .hbm, ⟨19, _⟩ => ⟨S1x128, .f32⟩
  | .hbm, ⟨20, _⟩ => ⟨S2000000x128, .f32⟩
  | .hbm, ⟨21, _⟩ => ⟨S2000000x128, .f32⟩
  | .hbm, ⟨22, _⟩ => ⟨S2000000x1, .f32⟩
  | .hbm, ⟨23, _⟩ => ⟨S2000000x128, .f32⟩
  | .hbm, ⟨24, _⟩ => ⟨S2000000x128, .f32⟩
  | .hbm, ⟨25, _⟩ => ⟨S_, .f32⟩
  | .hbm, ⟨26, _⟩ => ⟨S16000x128, .f32⟩
  | .hbm, ⟨27, _⟩ => ⟨S2000000x1, .i32⟩
  | .hbm, ⟨28, _⟩ => ⟨S16000x128, .f32⟩
  | .hbm, ⟨29, _⟩ => ⟨S_, .f32⟩
  | .hbm, ⟨30, _⟩ => ⟨S16000x128, .f32⟩
  | .hbm, ⟨31, _⟩ => ⟨S2000000x1, .i32⟩
  | .hbm, ⟨32, _⟩ => ⟨S16000x128, .f32⟩
  | .hbm, ⟨33, _⟩ => ⟨S16000x128, .f32⟩
  | .hbm, ⟨34, _⟩ => ⟨S_, .f32⟩
  | .hbm, ⟨35, _⟩ => ⟨S16000x128, .f32⟩
  | .hbm, ⟨36, _⟩ => ⟨S16000x128, .f32⟩
  | .hbm, ⟨37, _⟩ => ⟨S8x2000x128, .f32⟩
  | _, _ => ⟨S8x2000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S128x128_S128x128_1_0 : S128x128.Transposes [1, 0] S128x128
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S2000000x1_S2000000x128_0_1 : S2000000x1.BroadcastsInDim S2000000x128 (![0, 1] : Fin 2 → Fin S2000000x128.rank)
  bcast_S_S16000x128 : S_.BroadcastsInDim S16000x128 (![] : Fin 0 → Fin S16000x128.rank)
  shapeCasts_S16000x128_S8x2000x128 : S16000x128.ShapeCasts S8x2000x128
  gather_S2000x128_S2000000x1_S2000000x128_1_0_n_n_0_1_1128_wf : GatherDims.WF S2000x128 S2000000x1 S2000000x128 [1] [0] [] [0] [] 1 ![1, 128]
  dot_S2000000x128_S128x128_S2000000x128_1_0_0_1_n_n_wf : DotDims.WF S2000000x128 S128x128 S2000000x128 [1] [0] [0] [1] [] []
  scatter_S16000x128_S2000000x1_S2000000x128_1_0_0_1_wf : ScatterDims.WF S16000x128 S2000000x1 S2000000x128 [1] [0] [0] 1

variable [Facts₀]

def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def scatter_S16000x128_S2000000x1_S2000000x128_1_0_0_1 : ScatterDims S16000x128 S2000000x1 S2000000x128 where
  updateWindowDims := [1]
  insertedWindowDims := [0]
  scatterDimsToOperandDims := [0]
  indexVectorDim := 1
  wf := scatter_S16000x128_S2000000x1_S2000000x128_1_0_0_1_wf

class Facts : Prop extends Facts₀ where

variable [Facts]
-- ==== Proof.Spec.lean ====
/-
  The mathematics both programs compute, on the extended reals.

  Every edge `e` carries a relation id, a weight and two entity slots (head and tail). Relation `r` has a feature
  row; the layer maps it affinely, `lin r = (features r) · Wᵀ + b`. Edge `e` sends the message
  `lin (relation of e) · weight e` to both of its slots; a slot's value is the sum of the messages it receives over
  tails plus the same over heads, clipped below at zero.

  One program gathers the feature row per edge and maps it; the other maps the whole table once and picks the mapped
  row per edge by a sum against a 0/1 indicator row. A product with a zero factor is zero on the extended reals whatever
  the other factor is, so the indicator sum is exactly the picked row, and an edge of weight zero sends nothing.
-/
import Idealize.ShloMosaic.PureOps.Ideal
import Idealize.ShloMosaic.Lib.ValueIdx

noncomputable section

open scoped BigOperators

namespace Cert.Msg

open Idealize.ShloMosaic Idealize.ShloMosaic.ValueIdx

/-- Row `r` of the mapped relation table at column `l`: `∑ k, features (r, k) · W (l, k) + b l`. -/
def lin (relf : (⟨2, ![2000, 128]⟩ : Shape).Idx → EReal) (W : (⟨2, ![128, 128]⟩ : Shape).Idx → EReal)
    (b : (⟨1, ![128]⟩ : Shape).Idx → EReal) (r : Fin 2000) (l : Fin 128) : EReal :=
  (∑ k : Fin 128, relf (ix2 r k) * W (ix2 l k)) + b (ix1 l)

/-- A relation id as a row number of the table: read signed and clamped into `[0, 1999]`. -/
def row (x : BitVec 32) : Fin 2000 := ⟨min x.toInt.toNat (2000 - 1), by omega⟩

/-- The message of edge `e` at column `l`: its relation's mapped row times the edge's weight. -/
def msg (rels : IVec ⟨1, ![2000000]⟩ 32) (val : (⟨1, ![2000000]⟩ : Shape).Idx → EReal)
    (relf : (⟨2, ![2000, 128]⟩ : Shape).Idx → EReal) (W : (⟨2, ![128, 128]⟩ : Shape).Idx → EReal)
    (b : (⟨1, ![128]⟩ : Shape).Idx → EReal) (e : Fin 2000000) (l : Fin 128) : EReal :=
  lin relf W b (row (rels (ix1 e))) l * val (ix1 e)

/-- What slot `n` receives at column `l` through the slot ids `ids`: the messages of the edges whose id, read signed,
    is `n`. An id outside `[0, 16000)` names no slot and its message is dropped. -/
def received (ids : IVec ⟨1, ![2000000]⟩ 32) (w : Fin 2000000 → Fin 128 → EReal) (n : Fin 16000) (l : Fin 128) : EReal :=
  ∑ e : Fin 2000000, if (ids (ix1 e)).toInt = (n.val : ℤ) then w e l else 0

/-- A sum over `M + K` terms whose last `K` terms vanish is the sum of the first `M`. -/
theorem sum_drop_zero_tail {M K : ℕ} (f : Fin (M + K) → EReal) (hhi : ∀ j : Fin K, f (Fin.natAdd M j) = 0) :
    ∑ e, f e = ∑ e : Fin M, f (Fin.castAdd K e) := by
  rw [Fin.sum_univ_add, Finset.sum_eq_zero (fun j _ => hhi j), add_zero]

/-- A sum against the indicator of one index picks that index's term: on the extended reals a zero factor annihilates
    any other factor, an infinite one included. -/
theorem sum_indicator_mul {N : ℕ} (j : Fin N) (f : Fin N → EReal) :
    ∑ r : Fin N, (if r = j then (1 : EReal) else 0) * f r = f j := by
  rw [Finset.sum_eq_single j]
  · rw [if_pos rfl, one_mul]
  · intro r _ hr; rw [if_neg hr, zero_mul]
  · intro h; exact absurd (Finset.mem_univ j) h

/-- A 32-bit word whose signed value is a small natural number is that number's word. -/
theorem word_of_toInt {x : BitVec 32} {n : ℕ} (hn : n < 2147483648) (h : x.toInt = (n : ℤ)) : x = BitVec.ofNat 32 n := by
  apply BitVec.eq_of_toNat_eq
  rw [BitVec.toNat_ofNat]
  have hc := BitVec.toInt_eq_toNat_cond x
  have hx := x.isLt
  split at hc <;> omega

end Cert.Msg

end
-- ==== Proof.PreRange.lean ====
/-
  The relation ids lie in the table: from the stated precondition, every relation id, read signed, is in `[0, 2000)`.
-/
import proofs.«412785_j52896817218000_3_alg».proof.Pre_finite_inputs
import proofs.«412785_j52896817218000_3_alg».proof.Proof.Spec
import Idealize.ShloMosaic.Lib.ReduceAll
import Idealize.ShloMosaic.Lib.StableHlo.Predicate

noncomputable section

namespace Cert.Msg

open Idealize.ShloMosaic Idealize.ShloMosaic.ValueIdx

/-- Under the precondition (the printed predicate is all ones) every relation id is a row number of the table. -/
theorem rels_range [Cert.Pre_finite_inputs.Facts]
    (a0 : IVec ⟨2, ![8, 2000]⟩ 32) (a1 a2 a3 : IVec ⟨1, ![2000000]⟩ 32) (a4 : FVec Ideal ⟨1, ![2000000]⟩ .f32)
    (a5 : FVec Ideal ⟨2, ![2000, 128]⟩ .f32) (a6 : FVec Ideal ⟨2, ![128, 128]⟩ .f32) (a7 : FVec Ideal ⟨1, ![128]⟩ .f32)
    (h : Cert.Pre_finite_inputs.fn (F := Ideal) a0 a1 a2 a3 a4 a5 a6 a7 = fun _ => 1#1) (e : Fin 2000000) :
    0 ≤ (a3 (ix1 e)).toInt ∧ (a3 (ix1 e)).toInt < 2000 := by
  -- a scalar has exactly one index
  haveI : Subsingleton (Cert.Pre_finite_inputs.S_).Idx := ⟨fun a b => funext fun d => d.elim0⟩
  -- the predicate at its one index is a conjunction of six bits; the last two are the two range tests
  have h0 := congrFun h ValueIdx.ix0
  dsimp only [Cert.Pre_finite_inputs.fn, Cert.Pre_finite_inputs.fn_part1] at h0
  obtain ⟨h1, hlt⟩ := IntOp.andi_eq_one.1 h0
  obtain ⟨-, hge⟩ := IntOp.andi_eq_one.1 h1
  -- an and-reduction over every entry that came out 1 met a 1 at entry e
  have gge := Host.reduce_andi_all _ _ _ _ _ hge (ix1 e)
  have glt := Host.reduce_andi_all _ _ _ _ _ hlt (ix1 e)
  -- at entry e each test compares the relation id, signed, with the broadcast constant
  have gge' : IntOp.cmpi .sge (a3 (ix1 e)) 0#32 = 1#1 := gge
  have glt' : IntOp.cmpi .slt (a3 (ix1 e)) 2000#32 = 1#1 := glt
  rw [IntOp.cmpi_sge, show (0#32 : BitVec 32).toInt = 0 from by decide] at gge'
  rw [IntOp.cmpi_slt, show (2000#32 : BitVec 32).toInt = 2000 from by decide] at glt'
  exact ⟨gge', glt'⟩

end Cert.Msg

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.KernelGather.lean ====
/-
  The gather kernel's body as a function of what it loads, entry by entry.

  The id row is turned into a column and spread over 2048 columns; compared with the column numbers it gives a 0 / 1
  matrix whose row `y` has its single 1 at the row number lane `y` names. The product of that matrix with the table
  block is, entry by entry, a sum against an indicator, so it picks the named row of the table (a zero factor
  annihilates any extended real); the weight column, spread over the 128 columns, then multiplies it.
-/
import proofs.«412785_j52896817218000_3_alg».proof.Proof.Gen.KernelIdeal.Skeleton
import proofs.«412785_j52896817218000_3_alg».proof.Proof.Spec
import proofs.«412785_j52896817218000_3_alg».proof.Proof.LibMatProd
import Idealize.ShloMosaic.Lib.ValueLayout

noncomputable section

namespace Cert.Msg

open Idealize.ShloMosaic Idealize.ShloMosaic.ValueIdx Cert.KernelIdeal

namespace Gather

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 32-bit word of a row number below 2048 determines the row number. -/
theorem word_inj (r j : Fin 2048) : BitVec.ofNat 32 r.val = BitVec.ofNat 32 j.val ↔ r = j := by
  constructor
  · intro h
    have h' := congrArg BitVec.toNat h
    rw [BitVec.toNat_ofNat, BitVec.toNat_ofNat] at h'
    have hr := r.isLt
    have hj := j.isLt
    apply Fin.ext
    omega
  · intro h; rw [h]

/-- An integer comparison of two arrays reads entrywise. -/
theorem cmpi_apply {s : Shape} {w : ℕ} (p : CmpIPredicate) (a b : IVec s w) (i : s.Idx) :
    cmpi p a b i = IntOp.cmpi p (a i) (b i) := rfl

/-- The one-bit word of a condition, widened to 32 bits, read as a signed integer and then as an extended real, is 1 when
    the condition holds and 0 when it does not. -/
theorem sitofp_ind (c : Prop) [Decidable c] :
    FloatOps.sitofp (F := Ideal) .f32 ((if c then (1#1 : BitVec 1) else 0#1).setWidth 32) = if c then (1 : EReal) else 0 := by
  split
  · show (((BitVec.setWidth 32 (1#1 : BitVec 1)).toInt : ℝ) : EReal) = 1
    rw [show (BitVec.setWidth 32 (1#1 : BitVec 1)).toInt = 1 by decide]
    norm_num
  · show (((BitVec.setWidth 32 (0#1 : BitVec 1)).toInt : ℝ) : EReal) = 0
    rw [show (BitVec.setWidth 32 (0#1 : BitVec 1)).toInt = 0 by decide]
    norm_num

/-- Equality of the words of two row numbers below 2048, as a one-bit word. -/
theorem cmpi_word (r j : Fin 2048) :
    IntOp.cmpi .eq (BitVec.ofNat 32 r.val) (BitVec.ofNat 32 j.val) = if r = j then (1#1 : BitVec 1) else 0#1 := by
  unfold IntOp.cmpi
  by_cases h : r = j
  · subst h; simp
  · have hne : BitVec.ofNat 32 r.val ≠ BitVec.ofNat 32 j.val := fun e => h ((word_inj r j).1 e)
    rw [if_neg h, beq_eq_false_iff_ne.2 hne]; rfl

/-- The indicator matrix at `(y, r)`: 1 when `r` is the row number lane `y` names, 0 otherwise. -/
theorem ind_apply (v2 : IVec S1x2048 32) (hs : S1x2048.ShapeCasts S1x2048) (ht : S1x2048.Transposes [1, 0] S2048x1)
    (hb : S2048x1.Broadcasts S2048x2048) (hi : S2048x2048.Iotas .tc 32 [1]) (hw : 1 < 32)
    (hf : FTy.bf16.bits < FTy.f32.bits) (y j r : Fin 2048) (hj : v2 (ix2 0 y) = BitVec.ofNat 32 j.val) :
    (truncf .bf16 (sitofp (F := Ideal) .f32 (extui 32 (cmpi .eq (iota .tc S2048x2048 32 [1] hi)
      (broadcastTo S2048x2048 (transpose S2048x1 [1, 0] (shapeCast S1x2048 v2 hs) ht) hb)) hw)) hf) (ix2 y r)
      = if r = j then (1 : EReal) else 0 := by
  have e1 : iota .tc S2048x2048 32 [1] hi (ix2 y r) = BitVec.ofNat 32 r.val :=
    iota_single_apply .tc S2048x2048 32 1 hi (ix2 y r)
  have e2 : broadcastTo S2048x2048 (transpose S2048x1 [1, 0] (shapeCast S1x2048 v2 hs) ht) hb (ix2 y r)
      = BitVec.ofNat 32 j.val := by
    rw [broadcastTo_a1_ab_apply, transpose_ix2_apply, shapeCast_self, hj]
  rw [truncf_apply, sitofp_apply, extui_apply, cmpi_apply, e1, e2, cmpi_word]
  exact sitofp_ind (r = j)

end Gather

/-- The gather kernel's stored block at lane `y`, column `l`, when lane `y`'s relation id is the row number `j`: the
    table's row `j` times the lane's weight. -/
theorem gather_apply [Cert.KernelIdeal.Facts] (v0 : Vec Ideal S2048x128 .bf16) (v2 : Vec Ideal S1x2048 .i32)
    (v4 : Vec Ideal S1x2048 .f32) (y j : Fin 2048) (l : Fin 128) (hj : v2 (ix2 0 y) = BitVec.ofNat 32 j.val) :
    Cert.KernelIdeal.Gen.k1_pay1 (F := Ideal) v0 v2 v4 (ix2 y l) = v0 (ix2 j l) * v4 (ix2 0 y) := by
  unfold Cert.KernelIdeal.Gen.k1_pay1
  rw [truncf_apply, mulf_apply]
  -- the weight column spread over the columns reads lane `y`'s weight
  have ew : broadcastTo S2048x128 (transpose S2048x1 [1, 0] (shapeCast S1x2048 v4 Gen.shapeCasts_S1x2048_S1x2048)
      Gen.transposes_S1x2048_p1_0_S2048x1) Gen.broadcasts_S2048x1_S2048x128 (ix2 y l) = v4 (ix2 0 y) := by
    rw [Gather.broadcastTo_a1_ab_apply, transpose_ix2_apply, shapeCast_self]
  rw [ew]
  congr 1
  -- the product is a sum over the table's rows against the indicator of row `j`
  refine (Cert.LibMatProd.matmul_zero_apply dot_S2048x2048_S2048x128_S2048x128_1_0_0_1_n_n rfl none _ _ y l).trans ?_
  refine (Finset.sum_congr rfl fun r _ => ?_).trans (sum_indicator_mul j fun r => v0 (ix2 r l))
  rw [Gather.ind_apply v2 _ _ _ _ _ _ y j r hj, shapeCast_self]

end Cert.Msg

end
-- ==== Proof.KernelArrays.lean ====
/-
  The two kernels' output arrays as functions of what each kernel is entered with.

  The first kernel runs once over whole arrays, so the mapped table is the body's value of the padded feature table,
  the weight matrix and the bias row. The second kernel runs over 977 points; point `t` reads the whole table and lanes
  `2048 t … 2048 t + 2047` of the id and weight rows and writes rows `2048 t … 2048 t + 2047` of the weighted rows. These
  blocks tile the array, so every entry of the result is the entry some point wrote: at an edge whose relation id names
  row `j` of the table, that row times the edge's weight.
-/
import proofs.«412785_j52896817218000_3_alg».proof.Proof.Gen.KernelIdeal.Frame
import proofs.«412785_j52896817218000_3_alg».proof.Proof.KernelGather
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Arrays

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The table kernel runs at one grid point, and every window's block index there is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input block of the table kernel is its whole array. -/
theorem iblk0_0 (c : Dev nD) (t : Fin cfg0.N) : iblk0 V c 0 t = V c main_v6 := by
  obtain ⟨e0, e1, -⟩ := idx0 t
  have hz' : (fun a => win0_0.index t a * main_v6.ty.shape.size a) = fun _ => 0 :=
    funext fun a => by
      match a with
      | ⟨0, _⟩ => show win0_0.index t (0 : Fin 2) * 2048 = 0; rw [e0]
      | ⟨1, _⟩ => show win0_0.index t (1 : Fin 2) * 128 = 0; rw [e1]
  unfold iblk0
  exact Memref.read_access_unit_zero (Elt Ideal) main_v6 hz' (fun a => by rw [congrFun hz' a]; simp) (V c main_v6)

theorem iblk0_1 (c : Dev nD) (t : Fin cfg0.N) : iblk0 V c 1 t = V c main_arg6 := by
  obtain ⟨-, -, e0, e1, -⟩ := idx0 t
  have hz' : (fun a => win0_1.index t a * main_arg6.ty.shape.size a) = fun _ => 0 :=
    funext fun a => by
      match a with
      | ⟨0, _⟩ => show win0_1.index t (0 : Fin 2) * 128 = 0; rw [e0]
      | ⟨1, _⟩ => show win0_1.index t (1 : Fin 2) * 128 = 0; rw [e1]
  unfold iblk0
  exact Memref.read_access_unit_zero (Elt Ideal) main_arg6 hz' (fun a => by rw [congrFun hz' a]; simp) (V c main_arg6)

theorem iblk0_2 (c : Dev nD) (t : Fin cfg0.N) : iblk0 V c 2 t = V c main_v7 := by
  obtain ⟨-, -, -, -, e0, e1, -⟩ := idx0 t
  have hz' : (fun a => win0_2.index t a * main_v7.ty.shape.size a) = fun _ => 0 :=
    funext fun a => by
      match a with
      | ⟨0, _⟩ => show win0_2.index t (0 : Fin 2) * 1 = 0; rw [e0]
      | ⟨1, _⟩ => show win0_2.index t (1 : Fin 2) * 128 = 0; rw [e1]
  unfold iblk0
  exact Memref.read_access_unit_zero (Elt Ideal) main_v7 hz' (fun a => by rw [congrFun hz' a]; simp) (V c main_v7)

/-- What the one grid point writes back is the body's value of the three whole arrays. -/
theorem flushed0 (c : Dev nD) (t : Fin cfg0.N) :
    (dat0 V c).flushed 3 t = ((cfg0.win 3).blk t).view.read (Elt Ideal)
      (k0_pay1 (F := Ideal) (V c main_v6) (V c main_arg6) (V c main_v7)) := by
  show (cfg0.win 3).cut (grid0.coords t) ((dat0 V c).after 3 t) = _
  rw [after0_3]
  unfold out0_3
  rw [View.canon_unit_zero hz]
  simp only [View.ld_unit_zero (S := S2048x128) hz, View.ld_unit_zero (S := S128x128) hz, View.ld_unit_zero (S := S1x128) hz]
  rw [iblk0_0, iblk0_1, iblk0_2]
  obtain ⟨-, -, -, -, -, -, e0, e1⟩ := idx0 t
  have hz' : (fun a => win0_3.index t a * main_v8.ty.shape.size a) = fun _ => 0 :=
    funext fun a => by
      match a with
      | ⟨0, _⟩ => show win0_3.index t (0 : Fin 2) * 2048 = 0; rw [e0]
      | ⟨1, _⟩ => show win0_3.index t (1 : Fin 2) * 128 = 0; rw [e1]
  exact (Memref.read_access_unit_zero (Elt Ideal) main_v8 hz' (fun a => by rw [congrFun hz' a]; simp) _).symm

/-- The mapped table after the first kernel: the body's value of the padded features, the weights and the bias row. -/
theorem table_arr (c : Dev nD) :
    (dat0 V c).arrAt 3 cfg0.N = k0_pay1 (F := Ideal) (V c main_v6) (V c main_arg6) (V c main_v7) :=
  (dat0 V c).arrAt_eq_of_cover 3 _ (fun t _ => flushed0 V c t) fun i => by
    have t0 : Fin cfg0.N := ⟨0, by decide⟩
    obtain ⟨-, -, -, -, -, -, e0, e1⟩ := idx0 t0
    refine ⟨t0, flush0_3 t0, ?_⟩
    show i ∈ ((View.whole main_v8).slice (win0_3.rect t0)).set
    rw [View.set_slice_whole, Rect.mem_set_unit]
    intro a
    have h0 : (i 0 : Nat) < 2048 := (i 0).isLt
    have h1 : (i 1 : Nat) < 128 := (i 1).isLt
    match a with
    | ⟨0, _⟩ =>
      show win0_3.index t0 (0 : Fin 2) * 2048 ≤ (i 0 : Nat) ∧ (i 0 : Nat) < win0_3.index t0 (0 : Fin 2) * 2048 + 2048
      rw [e0]; omega
    | ⟨1, _⟩ =>
      show win0_3.index t0 (1 : Fin 2) * 128 ≤ (i 1 : Nat) ∧ (i 1 : Nat) < win0_3.index t0 (1 : Fin 2) * 128 + 128
      rw [e1]; omega

/-- The gather kernel's block indices over its 977 points: the table whole at every point, the id and weight rows and
    the output moving one block per point. -/
theorem idx1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = t.val ∧ win1_3.index t (1 : Fin 2) = 0 :=
  (by decide +kernel : ∀ t : Fin grid1.N, _)

/-- The table block of the gather kernel is the whole table at every point. -/
theorem iblk1_0 (c : Dev nD) (t : Fin cfg1.N) : iblk1 V c 0 t = V c main_v8 := by
  obtain ⟨e0, e1, -⟩ := idx1 t
  have hz' : (fun a => win1_0.index t a * main_v8.ty.shape.size a) = fun _ => 0 :=
    funext fun a => by
      match a with
      | ⟨0, _⟩ => show win1_0.index t (0 : Fin 2) * 2048 = 0; rw [e0]
      | ⟨1, _⟩ => show win1_0.index t (1 : Fin 2) * 128 = 0; rw [e1]
  unfold iblk1
  exact Memref.read_access_unit_zero (Elt Ideal) main_v8 hz' (fun a => by rw [congrFun hz' a]; simp) (V c main_v8)

/-- Lane `y` of the id block at point `t` is edge `2048 t + y` of the id row. -/
theorem iblk1_1_apply (c : Dev nD) (t : Fin cfg1.N) (y : Fin 2048) (e : Fin 2000896) (he : e.val = 2048 * t.val + y.val) :
    (iblk1 V c 1 t : Vec Ideal S1x2048 .i32) (ix2 0 y) = (V c main_v4 : Vec Ideal S1x2000896 .i32) (ix2 0 e) := by
  obtain ⟨-, -, e0, e1, -⟩ := idx1 t
  unfold iblk1
  rw [View.read_apply]
  show V c main_v4 _ = V c main_v4 _
  congr 1
  funext a
  apply Fin.ext
  match a with
  | ⟨0, _⟩ => show win1_1.index t (0 : Fin 2) * 1 + 1 * 0 = 0; rw [e0]
  | ⟨1, _⟩ => show win1_1.index t (1 : Fin 2) * 2048 + 1 * y.val = e.val; rw [e1, he]; omega

/-- Lane `y` of the weight block at point `t` is edge `2048 t + y` of the weight row. -/
theorem iblk1_2_apply (c : Dev nD) (t : Fin cfg1.N) (y : Fin 2048) (e : Fin 2000896) (he : e.val = 2048 * t.val + y.val) :
    (iblk1 V c 2 t : Vec Ideal S1x2048 .f32) (ix2 0 y) = (V c main_v5 : Vec Ideal S1x2000896 .f32) (ix2 0 e) := by
  obtain ⟨-, -, -, -, e0, e1, -⟩ := idx1 t
  unfold iblk1
  rw [View.read_apply]
  show V c main_v5 _ = V c main_v5 _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * y.val = e.val; rw [e1, he]; omega

/-- What point `t` writes back, entry by entry: the body's value of the point's three blocks. -/
theorem flushed1_apply (c : Dev nD) (t : Fin cfg1.N) (y : S2048x128.Idx) :
    (dat1 V c).flushed 3 t y = k1_pay1 (F := Ideal) (iblk1 V c 0 t) (iblk1 V c 1 t) (iblk1 V c 2 t) y := by
  show (cfg1.win 3).cut (grid1.coords t) ((dat1 V c).after 3 t) y = _
  rw [after1_3]
  unfold out1_3
  rw [View.canon_unit_zero hz]
  simp only [View.ld_unit_zero (S := S2048x128) hz, View.ld_unit_zero (S := S1x2048) hz]
  rfl

/-- The arrays the gather kernel reads, named by their literal types: the mapped table, the id row, the weight row. -/
abbrev tblArr (c : Dev nD) : Vec Ideal S2048x128 .bf16 := V c main_v8
abbrev relRow (c : Dev nD) : Vec Ideal S1x2000896 .i32 := V c main_v4
abbrev valRow (c : Dev nD) : Vec Ideal S1x2000896 .f32 := V c main_v5

/-- Every edge row lies in the block of the point that is its number divided by the block height. -/
theorem cover1 (i : S2000896x128.Idx) :
    ∃ t : Fin cfg1.N, (cfg1.win 3).flush t = true ∧ i ∈ ((cfg1.win 3).blk t).view.set := by
  have h0 : (i 0 : Nat) < 2000896 := (i 0).isLt
  have h1 : (i 1 : Nat) < 128 := (i 1).isLt
  have hN : cfg1.N = 977 := N_1
  let t : Fin cfg1.N := ⟨(i 0 : Nat) / 2048, by rw [hN]; omega⟩
  obtain ⟨-, -, -, -, -, -, e0, e1⟩ := idx1 t
  have ht : t.val = (i 0 : Nat) / 2048 := rfl
  refine ⟨t, flush1_3 t, ?_⟩
  show i ∈ ((View.whole main_v9).slice (win1_3.rect t)).set
  rw [View.set_slice_whole, Rect.mem_set_unit]
  intro a
  match a with
  | ⟨0, _⟩ =>
    show win1_3.index t (0 : Fin 2) * 2048 ≤ (i 0 : Nat) ∧ (i 0 : Nat) < win1_3.index t (0 : Fin 2) * 2048 + 2048
    rw [e0, ht]; omega
  | ⟨1, _⟩ =>
    show win1_3.index t (1 : Fin 2) * 128 ≤ (i 1 : Nat) ∧ (i 1 : Nat) < win1_3.index t (1 : Fin 2) * 128 + 128
    rw [e1]; omega

/-- What point `t` writes back at lane `p`, column `q`, when lane `p` is edge `e` and that edge's relation id is the row
    number `j`: the table's row `j` at column `q` times the edge's weight. -/
theorem flushed1_entry (c : Dev nD) (t : Fin cfg1.N) (p : Fin 2048) (q : Fin 128) (e : Fin 2000896) (j : Fin 2048)
    (he : e.val = 2048 * t.val + p.val) (hj : relRow V c (ix2 0 e) = BitVec.ofNat 32 j.val) :
    ((dat1 V c).flushed 3 t : Vec Ideal S2048x128 .bf16) (ix2 p q) = tblArr V c (ix2 j q) * valRow V c (ix2 0 e) := by
  rw [flushed1_apply,
    Cert.Msg.gather_apply (iblk1 V c 0 t) (iblk1 V c 1 t) (iblk1 V c 2 t) p j q ((iblk1_1_apply V c t p e he).trans hj),
    iblk1_0, iblk1_2_apply V c t p e he]

/-- The weighted rows after the second kernel, entry by entry: at an edge whose relation id is the row number `j`, the
    table's row `j` times the edge's weight. -/
theorem gather_arr (c : Dev nD) (e : Fin 2000896) (l : Fin 128) (j : Fin 2048)
    (hj : relRow V c (ix2 0 e) = BitVec.ofNat 32 j.val) :
    ((dat1 V c).arrAt 3 cfg1.N : Vec Ideal S2000896x128 .bf16) (ix2 e l)
      = tblArr V c (ix2 j l) * valRow V c (ix2 0 e) := by
  have key := (dat1 V c).arrAt_forall_of_cover 3
    (fun i v => ∀ (e : Fin 2000896) (l : Fin 128) (j : Fin 2048), i = ix2 e l →
      relRow V c (ix2 0 e) = BitVec.ofNat 32 j.val →
      (v : EReal) = tblArr V c (ix2 j l) * valRow V c (ix2 0 e))
    (fun t _ y e l j hi hj => by
      obtain ⟨p, q, rfl⟩ : ∃ (p : Fin 2048) (q : Fin 128), (y : S2048x128.Idx) = ix2 p q := ⟨y 0, y 1, eq_ix2 y⟩
      obtain ⟨-, -, -, -, -, -, e0, e1⟩ := idx1 t
      have h0 : win1_3.index t (0 : Fin 2) * 2048 + 1 * p.val = e.val := congrArg Fin.val (congrFun hi 0)
      have h1 : win1_3.index t (1 : Fin 2) * 128 + 1 * q.val = l.val := congrArg Fin.val (congrFun hi 1)
      rw [e0] at h0
      rw [e1] at h1
      have he : e.val = 2048 * t.val + p.val := by omega
      obtain rfl : q = l := Fin.ext (by omega)
      exact flushed1_entry V c t p q e j he hj)
    (cover1) (ix2 e l)
  exact key e l j rfl hj

end Cert.KernelIdeal.Arrays

end
-- ==== Proof.KernelHost.lean ====
/-
  The host operations around the two kernels, read once.

  Before the first kernel the host pads the feature table with 48 zero rows and views the bias as a row; before the
  second it pads the relation ids, the weights and both slot-id vectors with 896 zeros and views the first two as rows.
  After the second kernel it widens the weighted rows, takes their segment sum by the tail ids and by the head ids from
  zero, adds the two, clips below at zero, and views the result as [8, 2000, 128].
-/
import proofs.«412785_j52896817218000_3_alg».proof.Proof.Gen.KernelIdeal.Frame
import proofs.«412785_j52896817218000_3_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.HostSide

open Cert.KernelIdeal Cert.KernelIdeal.Gen

variable (m : (ℓ : Loc nD τ sig) → Buf (Elt Ideal) ℓ) (ρ : Dev nD → PrngReg)

/-! ## What each kernel and the host tail is entered with -/
/-- The feature table padded with zero rows to 2048 rows. -/
theorem entry_v6 (c : Dev nD) :
    (V11 m ρ c main_v6 : Vec Ideal S2048x128 .f32)
      = pad S2048x128 ![0, 0] ![48, 0] ![0, 0] (m ((c : Thread nD τ).loc main_arg5))
          (sitofp (F := Ideal) .f32 (constantI S_ 32 0#32)) pads_S2000x128_S2048x128_0480_000 h_S_ := by
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-- The weight matrix as launched. -/
theorem entry_arg6 (c : Dev nD) :
    (V11 m ρ c main_arg6 : Vec Ideal S128x128 .f32) = m ((c : Thread nD τ).loc main_arg6) := by
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results

/-- The bias as a row. -/
theorem entry_v7 (c : Dev nD) :
    (V11 m ρ c main_v7 : Vec Ideal S1x128 .f32)
      = shapeCast S1x128 (m ((c : Thread nD τ).loc main_arg7)) shapeCasts_S128_S1x128 := by
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-- The relation ids padded with zeros to 2000896 edges, as a row. -/
theorem entry_v4 (c : Dev nD) :
    (V12 m ρ c main_v4 : Vec Ideal S1x2000896 .i32)
      = shapeCast S1x2000896 (pad S2000896 ![0] ![896] ![0] (m ((c : Thread nD τ).loc main_arg3)) (constantI S_ 32 0#32)
          pads_S2000000_S2000896_08960 h_S_) shapeCasts_S2000896_S1x2000896 := by
  show W12 m ρ c (Proc.devRef .tc main_v4) = _
  rw [W12_of_ne m ρ c main_v4 (by decide)]
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-- The edge weights padded with zeros to 2000896 edges, as a row. -/
theorem entry_v5 (c : Dev nD) :
    (V12 m ρ c main_v5 : Vec Ideal S1x2000896 .f32)
      = shapeCast S1x2000896 (pad S2000896 ![0] ![896] ![0] (m ((c : Thread nD τ).loc main_arg4)) (constant (F := Ideal) S_ .f32 0x00000000#32)
          pads_S2000000_S2000896_08960 h_S_) shapeCasts_S2000896_S1x2000896 := by
  show W12 m ρ c (Proc.devRef .tc main_v5) = _
  rw [W12_of_ne m ρ c main_v5 (by decide)]
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-- The mapped table is what the first kernel left. -/
theorem entry_v8 (c : Dev nD) : V12 m ρ c main_v8 = (dat0 (V11 m ρ) c).arrAt 3 cfg0.N :=
  W12_arr m ρ c 3

/-- The weighted rows are what the second kernel left. -/
theorem tail_v9 (c : Dev nD) : W13 m ρ c (Proc.devRef .tc main_v9) = (dat1 (V12 m ρ) c).arrAt 3 cfg1.N :=
  W13_arr m ρ c 3

/-- The tail ids padded with zeros. -/
theorem tail_v3 (c : Dev nD) :
    (W13 m ρ c (Proc.devRef .tc main_v3) : Vec Ideal S2000896 .i32)
      = pad S2000896 ![0] ![896] ![0] (m ((c : Thread nD τ).loc main_arg2)) (constantI S_ 32 0#32)
          pads_S2000000_S2000896_08960 h_S_ := by
  rw [W13_of_ne m ρ c main_v3 (by decide), W12_of_ne m ρ c main_v3 (by decide)]
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-- The head ids padded with zeros. -/
theorem tail_v2 (c : Dev nD) :
    (W13 m ρ c (Proc.devRef .tc main_v2) : Vec Ideal S2000896 .i32)
      = pad S2000896 ![0] ![896] ![0] (m ((c : Thread nD τ).loc main_arg1)) (constantI S_ 32 0#32)
          pads_S2000000_S2000896_08960 h_S_ := by
  rw [W13_of_ne m ρ c main_v2 (by decide), W12_of_ne m ρ c main_v2 (by decide)]
  dsimp only [V11, W11, W10, W9, W8, W7, W6, W5, W4, W3, W2, W1, W0, hostOps0, hostOps0_1, hostOps0_2, hostOps0_3, hostOps0_4,
    hostOps0_5, hostOps0_6, hostOps0_7, hostOps0_8, hostOps0_9, hostOps0_10]
  after_results
  funext i
  rfl

/-! ## The host tail, one stretch at a time -/

/-- The last stretch views the clipped sums as [8, 2000, 128]. -/
theorem v19_eq (c : Dev nD) :
    (W16 m ρ c (Proc.devRef .tc main_v19) : Vec Ideal S8x2000x128 .f32)
      = shapeCast S8x2000x128 (W15 m ρ c (Proc.devRef .tc main_v18) : Vec Ideal S16000x128 .f32)
          shapeCasts_S16000x128_S8x2000x128 := by
  show StableHlo.after hostOps2_2 (W15 m ρ c) (Proc.devRef .tc main_v19) = _
  generalize W15 m ρ c = X
  dsimp only [hostOps2_2]
  after_results
  funext i
  rfl

/-- The stretch before clips the sum below at zero. -/
theorem v18_eq (c : Dev nD) :
    (W15 m ρ c (Proc.devRef .tc main_v18) : Vec Ideal S16000x128 .f32)
      = maximumf (W14 m ρ c (Proc.devRef .tc main_v17) : Vec Ideal S16000x128 .f32)
          (broadcastInDim S16000x128 ![] bcast_S_S16000x128 (constant (F := Ideal) S_ .f32 0x00000000#32)) := by
  show StableHlo.after hostOps2_1 (W14 m ρ c) (Proc.devRef .tc main_v18) = _
  generalize W14 m ρ c = X
  dsimp only [hostOps2_1]
  after_results
  rfl

/-- The first stretch after the kernels: both segment sums of the widened weighted rows, added. -/
theorem v17_eq (c : Dev nD) :
    (W14 m ρ c (Proc.devRef .tc main_v17) : Vec Ideal S16000x128 .f32)
      = addf
          (Host.scatterAdd scatter_S16000x128_S2000896x1_S2000896x128_1_0_0_1
            (broadcastInDim S16000x128 ![] bcast_S_S16000x128 (constant (F := Ideal) S_ .f32 0x00000000#32))
            (broadcastInDim S2000896x1 ![0] bcast_S2000896_S2000896x1_0 (W13 m ρ c (Proc.devRef .tc main_v3) : Vec Ideal S2000896 .i32))
            (extf .f32 (W13 m ρ c (Proc.devRef .tc main_v9) : Vec Ideal S2000896x128 .bf16) bitsLt_bf16_f32))
          (Host.scatterAdd scatter_S16000x128_S2000896x1_S2000896x128_1_0_0_1
            (broadcastInDim S16000x128 ![] bcast_S_S16000x128 (constant (F := Ideal) S_ .f32 0x00000000#32))
            (broadcastInDim S2000896x1 ![0] bcast_S2000896_S2000896x1_0 (W13 m ρ c (Proc.devRef .tc main_v2) : Vec Ideal S2000896 .i32))
            (extf .f32 (W13 m ρ c (Proc.devRef .tc main_v9) : Vec Ideal S2000896x128 .bf16) bitsLt_bf16_f32)) := by
  show StableHlo.after hostOps2 (W13 m ρ c) (Proc.devRef .tc main_v17) = _
  generalize W13 m ρ c = X
  dsimp only [hostOps2]
  after_results

end Cert.KernelIdeal.HostSide

end
-- ==== Proof.KernelPay.lean ====
/-
  The table kernel's body as a function of what it loads, entry by entry.
-/
import proofs.«412785_j52896817218000_3_alg».proof.Proof.Gen.KernelIdeal.Skeleton
import proofs.«412785_j52896817218000_3_alg».proof.Proof.Spec
import proofs.«412785_j52896817218000_3_alg».proof.Proof.LibMatProd
import Idealize.ShloMosaic.Lib.ValueLayout
import Idealize.ShloMosaic.Lib.Affine

noncomputable section

namespace Cert.Msg

open Idealize.ShloMosaic Idealize.ShloMosaic.ValueIdx Cert.KernelIdeal

/-- A row number below 2048, written as a 32-bit word and read back signed, is itself. -/
private theorem toInt_row (r : Fin 2048) : (BitVec.ofNat 32 r.val).toInt = (r.val : ℤ) := by
  have hr := r.isLt
  have hn : (BitVec.ofNat 32 r.val).toNat = r.val := by
    rw [BitVec.toNat_ofNat]; exact Nat.mod_eq_of_lt (by omega)
  have hc := BitVec.toInt_eq_toNat_cond (BitVec.ofNat 32 r.val)
  rw [hn] at hc
  split at hc <;> omega

/-- The signed comparison of a row number's word with 2000 is the bit of `r < 2000`. -/
private theorem row_mask (r : Fin 2048) :
    IntOp.cmpi .slt (BitVec.ofNat 32 r.val) 2000#32 = if r.val < 2000 then 1#1 else 0#1 := by
  have h2000 : (2000#32 : BitVec 32).toInt = 2000 := by decide
  by_cases h : r.val < 2000
  · rw [if_pos h]
    exact IntOp.cmpi_slt.2 (by rw [toInt_row, h2000]; omega)
  · rw [if_neg h]
    exact eq_zero_of_ne_one fun h1 => h (by have := IntOp.cmpi_slt.1 h1; rw [toInt_row, h2000] at this; omega)

/-- The feature block times the transposed weight matrix, at `(r, l)`: `∑ k, features (r, k) · W (l, k)`.
    Narrowing the float format changes nothing on the extended reals, and entry `(k, l)` of the transpose is `W (l, k)`. -/
private theorem product_apply [Cert.KernelIdeal.Facts] (v0 : Vec Ideal S2048x128 .f32) (v3 : Vec Ideal S128x128 .f32)
    (r : Fin 2048) (l : Fin 128) :
    matmul (F := Ideal) dot_S2048x128_S128x128_S2048x128_1_0_0_1_n_n none
        (truncf FTy.bf16 (shapeCast S2048x128 v0 Gen.shapeCasts_S2048x128_S2048x128) Gen.bitsLt_bf16_f32)
        (transpose S128x128 [1, 0] (truncf FTy.bf16 v3 Gen.bitsLt_bf16_f32) Gen.transposes_S128x128_p1_0_S128x128)
        (constant (F := Ideal) S2048x128 FTy.f32 0x00000000#32) (ix2 r l)
      = ∑ k : Fin 128, v0 (ix2 r k) * v3 (ix2 l k) := by
  refine (Cert.LibMatProd.matmul_zero_apply _ rfl none _ _ r l).trans ?_
  refine Finset.sum_congr rfl fun k _ => ?_
  rw [truncf_apply, shapeCast_self, transpose_ix2_apply, truncf_apply]

/-- The table kernel's stored block at row `r`, column `l`: the mapped row for a real relation, zero for a padding row. -/
theorem table_apply [Cert.KernelIdeal.Facts] (v0 : Vec Ideal S2048x128 .f32) (v3 : Vec Ideal S128x128 .f32)
    (v5 : Vec Ideal S1x128 .f32) (r : Fin 2048) (l : Fin 128) :
    Cert.KernelIdeal.Gen.k0_pay1 (F := Ideal) v0 v3 v5 (ix2 r l)
      = if r.val < 2000 then (∑ k : Fin 128, v0 (ix2 r k) * v3 (ix2 l k)) + v5 (ix2 0 l) else 0 := by
  unfold Cert.KernelIdeal.Gen.k0_pay1
  -- the pointwise operations at `(r, l)`: the final narrowing is the identity, the select chooses by the mask's bit
  rw [truncf_apply, select_apply, addf_apply, broadcast_apply]
  -- the mask: the row number's word compared signed with 2000
  have hc : cmpi CmpIPredicate.slt (iota Kind.tc S2048x128 32 [0] Gen.iota_S2048x128_d0_w32)
      (broadcast S2048x128 2000#32) (ix2 r l) = if r.val < 2000 then 1#1 else 0#1 := by
    show IntOp.cmpi .slt (iota Kind.tc S2048x128 32 [0] Gen.iota_S2048x128_d0_w32 (ix2 r l)) 2000#32 = _
    rw [iota_single_apply]
    exact row_mask r
  -- the bias row repeated down the block reads its one row at column `l`
  have hb : broadcastTo S2048x128 (shapeCast S1x128 v5 Gen.shapeCasts_S1x128_S1x128)
      Gen.broadcasts_S1x128_S2048x128 (ix2 r l) = v5 (ix2 0 l) := by
    rw [broadcastTo_1b_ab_apply, shapeCast_self]
  rw [hc, product_apply v0 v3 r l, hb]
  by_cases h : r.val < 2000
  · rw [if_pos h, if_pos h, select_one]
  · rw [if_neg h, if_neg h, select_zero]
    -- the word of +0.0 is the real number 0
    exact Ideal.ofBits_zero_f32

end Cert.Msg

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.Bridge.lean ====
/-
  A segment sum over edges padded with zero rows is the segment sum over the edges.

  A segment sum into slot `n` adds the update rows whose id, read signed, is `n`. If the last 896 update rows are zero
  they add nothing, whatever slot their ids name; so the sum over the 2000896 padded rows is the sum over the first
  2000000, which is what the slot receives from the edges.
-/
import proofs.«412785_j52896817218000_3_alg».proof.Proof.Spec
import proofs.«412785_j52896817218000_3_alg».proof.Proof.LibSegment
import Idealize.ShloMosaic.Lib.SortFacts

noncomputable section

open scoped BigOperators

namespace Cert.Msg

open Idealize.ShloMosaic Idealize.ShloMosaic.ValueIdx Idealize.ShloMosaic.StableHlo.Predicate Cert.LibSegment

/-- The host's segment sum of the edges' rows `w` by the ids `ids`, at slot `n` and column `l`: the operand's entry plus
    what the slot receives. -/
theorem seg_apply
    {d : ScatterDims ⟨2, ![16000, 128]⟩ ⟨2, ![2000000, 1]⟩ ⟨2, ![2000000, 128]⟩}
    (wf : ScatterDims.WF ⟨2, ![16000, 128]⟩ ⟨2, ![2000000, 1]⟩ ⟨2, ![2000000, 128]⟩ [1] [0] [0] 1)
    (hd : d = segDims2 16000 2000000 128 wf)
    (Z : (⟨2, ![16000, 128]⟩ : Shape).Idx → EReal) (ids : IVec ⟨1, ![2000000]⟩ 32)
    (idsCol : IVec ⟨2, ![2000000, 1]⟩ 32) (w : Fin 2000000 → Fin 128 → EReal)
    (wr : (⟨2, ![2000000, 128]⟩ : Shape).Idx → EReal)
    (hids : ∀ e : Fin 2000000, idsCol (ixP e) = ids (ix1 e))
    (hw : ∀ (e : Fin 2000000) (l : Fin 128), wr (ix2 e l) = w e l) (n : Fin 16000) (l : Fin 128) :
    Host.scatterAdd (F := Ideal) (φ := .f32) d Z idsCol wr (ix2 n l) = Z (ix2 n l) + received ids w n l := by
  subst hd
  show Ideal.hostScatterAdd (segDims2 16000 2000000 128 wf) Z idsCol wr (ix2 n l) = _
  refine (scatterAdd_seg2_apply wf Z idsCol wr n l).trans (congrArg (Z (ix2 n l) + ·) ?_)
  unfold received
  refine Finset.sum_congr rfl fun e _ => ?_
  rw [hids, hw]

/-- The same segment sum over the edges padded with 896 rows of zeros. -/
theorem seg_padded_apply
    {d : ScatterDims ⟨2, ![16000, 128]⟩ ⟨2, ![2000896, 1]⟩ ⟨2, ![2000896, 128]⟩}
    (wf : ScatterDims.WF ⟨2, ![16000, 128]⟩ ⟨2, ![2000896, 1]⟩ ⟨2, ![2000896, 128]⟩ [1] [0] [0] 1)
    (hd : d = segDims2 16000 2000896 128 wf)
    (Z : (⟨2, ![16000, 128]⟩ : Shape).Idx → EReal) (ids : IVec ⟨1, ![2000000]⟩ 32)
    (idsCol : IVec ⟨2, ![2000896, 1]⟩ 32) (w : Fin 2000000 → Fin 128 → EReal)
    (wk : (⟨2, ![2000896, 128]⟩ : Shape).Idx → EReal)
    (hids : ∀ e : Fin 2000000, idsCol (ixP (Fin.castAdd 896 e)) = ids (ix1 e))
    (hw : ∀ (e : Fin 2000000) (l : Fin 128), wk (ix2 (Fin.castAdd 896 e) l) = w e l)
    (hz : ∀ (j : Fin 896) (l : Fin 128), wk (ix2 (Fin.natAdd 2000000 j) l) = 0) (n : Fin 16000) (l : Fin 128) :
    Host.scatterAdd (F := Ideal) (φ := .f32) d Z idsCol wk (ix2 n l) = Z (ix2 n l) + received ids w n l := by
  subst hd
  show Ideal.hostScatterAdd (segDims2 16000 2000896 128 wf) Z idsCol wk (ix2 n l) = _
  refine (scatterAdd_seg2_apply wf Z idsCol wk n l).trans (congrArg (Z (ix2 n l) + ·) ?_)
  unfold received
  refine (sum_drop_zero_tail (M := 2000000) (K := 896)
    (fun e => if (idsCol (ixP e)).toInt = (n.val : ℤ) then wk (ix2 e l) else 0) (fun j => ?_)).trans ?_
  · show (if _ then wk (ix2 (Fin.natAdd 2000000 j) l) else 0) = 0
    rw [hz, ite_self]
  · refine Finset.sum_congr rfl fun e _ => ?_
    show (if (idsCol (ixP (Fin.castAdd 896 e))).toInt = (n.val : ℤ) then wk (ix2 (Fin.castAdd 896 e) l) else 0) = _
    rw [hids, hw]

/-- The one-coordinate index built from a position is the index with that coordinate. -/
theorem ofFin_eq_ix1 {n : ℕ} (k : Fin n) : Shape.Idx.ofFin k = ix1 k :=
  funext fun d => by match d with | ⟨0, _⟩ => rfl

/-- The zero array both segment sums start from, and relu clips against. -/
def zeros : (⟨2, ![16000, 128]⟩ : Shape).Idx → EReal := fun _ => Ideal.ofBits .f32 0x00000000#32

/-- The layer's output at slot `n` and column `l`: what the slot receives over tails plus what it receives over heads
    (each added to zero), clipped below at zero. -/
def out16At (tails heads : IVec ⟨1, ![2000000]⟩ 32) (w : Fin 2000000 → Fin 128 → EReal) (n : Fin 16000) (l : Fin 128) :
    EReal :=
  max ((zeros (ix2 n l) + received tails w n l) + (zeros (ix2 n l) + received heads w n l)) (zeros (ix2 n l))

/-- The layer's output before its last reshape, as a [16000, 128] array. -/
def out16 (tails heads : IVec ⟨1, ![2000000]⟩ 32) (w : Fin 2000000 → Fin 128 → EReal) :
    (⟨2, ![16000, 128]⟩ : Shape).Idx → EReal := fun i => out16At tails heads w (i 0) (i 1)

theorem out16_apply (tails heads : IVec ⟨1, ![2000000]⟩ 32) (w : Fin 2000000 → Fin 128 → EReal) (n : Fin 16000)
    (l : Fin 128) : out16 tails heads w (ix2 n l) = out16At tails heads w n l := rfl

end Cert.Msg

end
-- ==== Proof.LibPadEnd.lean ====
/-
  General lemmas: a host `pad` that only appends at the end (no low padding, no interior padding), read at an index.

  Appending `K` copies of the padding value to a vector of length `M` leaves entry `e < M` where it was and puts the
  padding value at every later entry; appending `K` rows to an `M × C` matrix does the same row by row.
-/
import Idealize.ShloMosaic.Lib.KernelVsHost
import Idealize.ShloMosaic.Lib.ValueIdx

noncomputable section

namespace Cert.LibPadEnd

open Idealize.ShloMosaic Idealize.ShloMosaic.ValueIdx

/-- A vector padded at its end, read at an entry of the original vector. -/
theorem pad_end_inside {α : Type} {M P : ℕ} (K : ℕ) (x : (⟨1, ![M]⟩ : Shape).Idx → α) {u : Shape} (v : u.Idx → α)
    (h : (⟨1, ![M]⟩ : Shape).Pads ![0] ![K] ![0] ⟨1, ![P]⟩) (hu : 0 < u.numel) (e : Fin M) (e' : Fin P)
    (he : e'.val = e.val) :
    pad ⟨1, ![P]⟩ ![0] ![K] ![0] x v h hu (ix1 e') = x (ix1 e) :=
  pad_apply_of_inside _ _ _ x v h hu (ix1 e') (ix1 e)
    (Fin.forall_fin_one.2 (by show e'.val = 0 + e.val * (0 + 1); omega))

/-- A vector padded at its end, read past the original vector: the padding value. -/
theorem pad_end_outside {α : Type} {M P : ℕ} (K : ℕ) (x : (⟨1, ![M]⟩ : Shape).Idx → α) {u : Shape} (v : u.Idx → α)
    (h : (⟨1, ![M]⟩ : Shape).Pads ![0] ![K] ![0] ⟨1, ![P]⟩) (hu : 0 < u.numel) (e' : Fin P) (he : M ≤ e'.val) :
    pad ⟨1, ![P]⟩ ![0] ![K] ![0] x v h hu (ix1 e') = v (Shape.Idx.first hu) :=
  pad_apply_of_not_inside _ _ _ x v h hu (ix1 e') 0
    (by show ¬(0 ≤ e'.val ∧ (e'.val - 0) % (0 + 1) = 0 ∧ (e'.val - 0) / (0 + 1) < M); omega)

/-- A matrix with rows appended at its end, read at a row of the original matrix. -/
theorem pad_rows_inside {α : Type} {M P C : ℕ} (K : ℕ) (x : (⟨2, ![M, C]⟩ : Shape).Idx → α) {u : Shape} (v : u.Idx → α)
    (h : (⟨2, ![M, C]⟩ : Shape).Pads ![0, 0] ![K, 0] ![0, 0] ⟨2, ![P, C]⟩) (hu : 0 < u.numel) (r : Fin M) (r' : Fin P)
    (hr : r'.val = r.val) (k : Fin C) :
    pad ⟨2, ![P, C]⟩ ![0, 0] ![K, 0] ![0, 0] x v h hu (ix2 r' k) = x (ix2 r k) :=
  pad_apply_of_inside _ _ _ x v h hu (ix2 r' k) (ix2 r k)
    (Fin.forall_fin_two.2 ⟨by show r'.val = 0 + r.val * (0 + 1); omega, by show k.val = 0 + k.val * (0 + 1); omega⟩)

end Cert.LibPadEnd

end
-- ==== Proof.KernelValue.lean ====
/-
  The kernel program's result as the layer's output.

  The id and weight rows the second kernel reads are the launched vectors followed by 896 zeros. At an edge whose
  relation id is a row number of the feature table, the mapped table's row is the affine image of that feature row
  (the padding rows of the table are never named), so the weighted row is the edge's message; at a padding lane the
  weight is zero and the weighted row vanishes, whichever table row its zero id names. Hence both padded segment sums
  are the segment sums of the messages, and the result is the layer's output.
-/
import proofs.«412785_j52896817218000_3_alg».proof.Proof.KernelArrays
import proofs.«412785_j52896817218000_3_alg».proof.Proof.KernelHost
import proofs.«412785_j52896817218000_3_alg».proof.Proof.KernelPay
import proofs.«412785_j52896817218000_3_alg».proof.Proof.Bridge
import proofs.«412785_j52896817218000_3_alg».proof.Proof.LibPadEnd
import Idealize.ShloMosaic.PureOps.Ideal.Laws
import Idealize.ShloMosaic.Lib.Pipeline.Value
import Idealize.ShloMosaic.Lib.StableHlo.Predicate

set_option maxRecDepth 16384

noncomputable section

open Idealize.ShloMosaic Idealize.ShloMosaic.TcCoe Idealize.SL.Sem
open Idealize.ShloMosaic.ValueIdx Idealize.ShloMosaic.StableHlo.Predicate

namespace Cert.KernelIdeal.Result

open Cert.KernelIdeal Cert.KernelIdeal.Gen Cert.KernelIdeal.Arrays Cert.KernelIdeal.HostSide Cert.Msg Cert.LibPadEnd

variable (m : (ℓ : Loc nD τ sig) → Buf (Elt Ideal) ℓ) (ρ : Dev nD → PrngReg)

/-- The launched arrays, named by their literal types. -/
abbrev headIds (c : Dev nD) : IVec ⟨1, ![2000000]⟩ 32 := m ((c : Thread nD τ).loc main_arg1)
abbrev tailIds (c : Dev nD) : IVec ⟨1, ![2000000]⟩ 32 := m ((c : Thread nD τ).loc main_arg2)
abbrev rels (c : Dev nD) : IVec ⟨1, ![2000000]⟩ 32 := m ((c : Thread nD τ).loc main_arg3)
abbrev wts (c : Dev nD) : (⟨1, ![2000000]⟩ : Shape).Idx → EReal := m ((c : Thread nD τ).loc main_arg4)
abbrev feats (c : Dev nD) : (⟨2, ![2000, 128]⟩ : Shape).Idx → EReal := m ((c : Thread nD τ).loc main_arg5)
abbrev wmat (c : Dev nD) : (⟨2, ![128, 128]⟩ : Shape).Idx → EReal := m ((c : Thread nD τ).loc main_arg6)
abbrev bias (c : Dev nD) : (⟨1, ![128]⟩ : Shape).Idx → EReal := m ((c : Thread nD τ).loc main_arg7)

/-! ## The rows the second kernel reads -/

/-- The id row at an edge is the edge's relation id. -/
theorem relRow_edge (c : Dev nD) (e : Fin 2000000) (e' : Fin 2000896) (he : e'.val = e.val) :
    relRow (V12 m ρ) c (ix2 0 e') = rels m c (ix1 e) := by
  show (V12 m ρ c main_v4 : Vec Ideal S1x2000896 .i32) (ix2 0 e') = _
  rw [entry_v4]
  refine (shapeCast_apply _ shapeCasts_S2000896_S1x2000896 (ix2 0 e') (ix1 e') ?_).trans ?_
  · rw [Shape.rowMajor_val_one, Shape.rowMajor_val_two]; show e'.val = 0 * 2000896 + e'.val; omega
  · exact pad_end_inside 896 _ _ _ _ e e' he

/-- The id row at a padding lane is zero. -/
theorem relRow_pad (c : Dev nD) (e' : Fin 2000896) (he : 2000000 ≤ e'.val) :
    relRow (V12 m ρ) c (ix2 0 e') = 0#32 := by
  show (V12 m ρ c main_v4 : Vec Ideal S1x2000896 .i32) (ix2 0 e') = _
  rw [entry_v4]
  refine (shapeCast_apply _ shapeCasts_S2000896_S1x2000896 (ix2 0 e') (ix1 e') ?_).trans ?_
  · rw [Shape.rowMajor_val_one, Shape.rowMajor_val_two]; show e'.val = 0 * 2000896 + e'.val; omega
  · exact pad_end_outside 896 _ _ _ _ e' he

/-- The weight row at an edge is the edge's weight. -/
theorem valRow_edge (c : Dev nD) (e : Fin 2000000) (e' : Fin 2000896) (he : e'.val = e.val) :
    valRow (V12 m ρ) c (ix2 0 e') = wts m c (ix1 e) := by
  show (V12 m ρ c main_v5 : Vec Ideal S1x2000896 .f32) (ix2 0 e') = _
  rw [entry_v5]
  refine (shapeCast_apply _ shapeCasts_S2000896_S1x2000896 (ix2 0 e') (ix1 e') ?_).trans ?_
  · rw [Shape.rowMajor_val_one, Shape.rowMajor_val_two]; show e'.val = 0 * 2000896 + e'.val; omega
  · exact pad_end_inside 896 _ _ _ _ e e' he

/-- The weight row at a padding lane is zero. -/
theorem valRow_pad (c : Dev nD) (e' : Fin 2000896) (he : 2000000 ≤ e'.val) :
    valRow (V12 m ρ) c (ix2 0 e') = 0 := by
  show (V12 m ρ c main_v5 : Vec Ideal S1x2000896 .f32) (ix2 0 e') = _
  rw [entry_v5]
  refine (shapeCast_apply _ shapeCasts_S2000896_S1x2000896 (ix2 0 e') (ix1 e') ?_).trans ?_
  · rw [Shape.rowMajor_val_one, Shape.rowMajor_val_two]; show e'.val = 0 * 2000896 + e'.val; omega
  · exact (pad_end_outside 896 _ _ _ _ e' he).trans Ideal.ofBits_zero_f32

/-! ## The mapped table -/

/-- Row `j` of the mapped table, for a row number of the feature table: the affine image of that feature row. -/
theorem tbl_row (c : Dev nD) (j : Fin 2048) (hj : j.val < 2000) (l : Fin 128) :
    tblArr (V12 m ρ) c (ix2 j l) = lin (feats m c) (wmat m c) (bias m c) ⟨j.val, hj⟩ l := by
  show (V12 m ρ c main_v8 : Vec Ideal S2048x128 .bf16) (ix2 j l) = _
  rw [entry_v8, table_arr (V11 m ρ) c, table_apply, if_pos hj, entry_v6, entry_arg6, entry_v7]
  unfold lin
  congr 1
  · refine Finset.sum_congr rfl fun k _ => ?_
    rw [pad_rows_inside 48 _ _ _ _ ⟨j.val, hj⟩ j rfl k]
  · refine shapeCast_apply _ shapeCasts_S128_S1x128 (ix2 0 l) (ix1 l) ?_
    rw [Shape.rowMajor_val_one, Shape.rowMajor_val_two]; show l.val = 0 * 128 + l.val; omega

/-! ## The weighted rows -/

/-- A relation id inside the table is the 32-bit word of its row number. -/
theorem rel_word (x : BitVec 32) (h0 : 0 ≤ x.toInt) (h1 : x.toInt < 2000) : x = BitVec.ofNat 32 x.toInt.toNat :=
  word_of_toInt (by omega) (by omega)

/-- The widened weighted row of an edge whose relation id is inside the table is the edge's message. -/
theorem wk_edge (c : Dev nD) (e : Fin 2000000) (e' : Fin 2000896) (he : e'.val = e.val) (l : Fin 128)
    (h0 : 0 ≤ (rels m c (ix1 e)).toInt) (h1 : (rels m c (ix1 e)).toInt < 2000) :
    (extf .f32 (W13 m ρ c (Proc.devRef .tc main_v9) : Vec Ideal S2000896x128 .bf16) bitsLt_bf16_f32 :
        FVec Ideal S2000896x128 .f32) (ix2 e' l)
      = msg (rels m c) (wts m c) (feats m c) (wmat m c) (bias m c) e l := by
  show (W13 m ρ c (Proc.devRef .tc main_v9) : Vec Ideal S2000896x128 .bf16) (ix2 e' l) = _
  rw [tail_v9]
  have hlt : (rels m c (ix1 e)).toInt.toNat < 2000 := by omega
  have hj : relRow (V12 m ρ) c (ix2 0 e')
      = BitVec.ofNat 32 (⟨(rels m c (ix1 e)).toInt.toNat, by omega⟩ : Fin 2048).val :=
    (relRow_edge m ρ c e e' he).trans (rel_word _ h0 h1)
  rw [gather_arr (V12 m ρ) c e' l ⟨(rels m c (ix1 e)).toInt.toNat, by omega⟩ hj,
    tbl_row m ρ c ⟨(rels m c (ix1 e)).toInt.toNat, by omega⟩ hlt l, valRow_edge m ρ c e e' he]
  have hr : (⟨(rels m c (ix1 e)).toInt.toNat, hlt⟩ : Fin 2000) = row (rels m c (ix1 e)) :=
    Fin.ext (by show (rels m c (ix1 e)).toInt.toNat = min (rels m c (ix1 e)).toInt.toNat (2000 - 1); omega)
  rw [hr]
  unfold msg
  rfl

/-- The widened weighted row of a padding lane is zero: its weight is zero. -/
theorem wk_pad (c : Dev nD) (e' : Fin 2000896) (he : 2000000 ≤ e'.val) (l : Fin 128) :
    (extf .f32 (W13 m ρ c (Proc.devRef .tc main_v9) : Vec Ideal S2000896x128 .bf16) bitsLt_bf16_f32 :
        FVec Ideal S2000896x128 .f32) (ix2 e' l) = 0 := by
  show (W13 m ρ c (Proc.devRef .tc main_v9) : Vec Ideal S2000896x128 .bf16) (ix2 e' l) = _
  rw [tail_v9, gather_arr (V12 m ρ) c e' l ⟨0, by decide⟩ (relRow_pad m ρ c e' he), valRow_pad m ρ c e' he, mul_zero]

/-! ## The slot-id columns -/

/-- The padded tail ids as a column, at an edge. -/
theorem tailCol_edge (c : Dev nD) (e : Fin 2000000) (e' : Fin 2000896) (he : e'.val = e.val) :
    (broadcastInDim S2000896x1 ![0] bcast_S2000896_S2000896x1_0
        (W13 m ρ c (Proc.devRef .tc main_v3) : Vec Ideal S2000896 .i32)) (ixP e') = tailIds m c (ix1 e) := by
  refine (bcast_col1 bcast_S2000896_S2000896x1_0 _ e').trans ?_
  rw [ofFin_eq_ix1, tail_v3]
  exact pad_end_inside 896 _ _ _ _ e e' he

/-- The padded head ids as a column, at an edge. -/
theorem headCol_edge (c : Dev nD) (e : Fin 2000000) (e' : Fin 2000896) (he : e'.val = e.val) :
    (broadcastInDim S2000896x1 ![0] bcast_S2000896_S2000896x1_0
        (W13 m ρ c (Proc.devRef .tc main_v2) : Vec Ideal S2000896 .i32)) (ixP e') = headIds m c (ix1 e) := by
  refine (bcast_col1 bcast_S2000896_S2000896x1_0 _ e').trans ?_
  rw [ofFin_eq_ix1, tail_v2]
  exact pad_end_inside 896 _ _ _ _ e e' he

/-! ## The segment sums and the result -/

/-- The zero array the host broadcasts is the zero array of the specification. -/
theorem zeros_eq :
    (broadcastInDim S16000x128 ![] bcast_S_S16000x128 (constant (F := Ideal) S_ .f32 0x00000000#32) :
      Vec Ideal S16000x128 .f32) = zeros :=
  funext fun _ => rfl

/-- The padded segment sum by the tail ids, entry by entry. -/
theorem tailSum_apply (c : Dev nD)
    (hr : ∀ e : Fin 2000000, 0 ≤ (rels m c (ix1 e)).toInt ∧ (rels m c (ix1 e)).toInt < 2000) (n : Fin 16000) (l : Fin 128) :
    (Host.scatterAdd scatter_S16000x128_S2000896x1_S2000896x128_1_0_0_1
        (broadcastInDim S16000x128 ![] bcast_S_S16000x128 (constant (F := Ideal) S_ .f32 0x00000000#32))
        (broadcastInDim S2000896x1 ![0] bcast_S2000896_S2000896x1_0 (W13 m ρ c (Proc.devRef .tc main_v3) : Vec Ideal S2000896 .i32))
        (extf .f32 (W13 m ρ c (Proc.devRef .tc main_v9) : Vec Ideal S2000896x128 .bf16) bitsLt_bf16_f32) :
      Vec Ideal S16000x128 .f32) (ix2 n l)
      = zeros (ix2 n l) + received (tailIds m c) (msg (rels m c) (wts m c) (feats m c) (wmat m c) (bias m c)) n l := by
  rw [zeros_eq]
  exact seg_padded_apply scatter_S16000x128_S2000896x1_S2000896x128_1_0_0_1.wf rfl zeros (tailIds m c) _
    (msg (rels m c) (wts m c) (feats m c) (wmat m c) (bias m c)) _
    (fun e => tailCol_edge m ρ c e (Fin.castAdd 896 e) rfl)
    (fun e l => wk_edge m ρ c e (Fin.castAdd 896 e) rfl l (hr e).1 (hr e).2)
    (fun j l => wk_pad m ρ c (Fin.natAdd 2000000 j) (Nat.le_add_right _ _) l) n l

/-- The padded segment sum by the head ids, entry by entry. -/
theorem headSum_apply (c : Dev nD)
    (hr : ∀ e : Fin 2000000, 0 ≤ (rels m c (ix1 e)).toInt ∧ (rels m c (ix1 e)).toInt < 2000) (n : Fin 16000) (l : Fin 128) :
    (Host.scatterAdd scatter_S16000x128_S2000896x1_S2000896x128_1_0_0_1
        (broadcastInDim S16000x128 ![] bcast_S_S16000x128 (constant (F := Ideal) S_ .f32 0x00000000#32))
        (broadcastInDim S2000896x1 ![0] bcast_S2000896_S2000896x1_0 (W13 m ρ c (Proc.devRef .tc main_v2) : Vec Ideal S2000896 .i32))
        (extf .f32 (W13 m ρ c (Proc.devRef .tc main_v9) : Vec Ideal S2000896x128 .bf16) bitsLt_bf16_f32) :
      Vec Ideal S16000x128 .f32) (ix2 n l)
      = zeros (ix2 n l) + received (headIds m c) (msg (rels m c) (wts m c) (feats m c) (wmat m c) (bias m c)) n l := by
  rw [zeros_eq]
  exact seg_padded_apply scatter_S16000x128_S2000896x1_S2000896x128_1_0_0_1.wf rfl zeros (headIds m c) _
    (msg (rels m c) (wts m c) (feats m c) (wmat m c) (bias m c)) _
    (fun e => headCol_edge m ρ c e (Fin.castAdd 896 e) rfl)
    (fun e l => wk_edge m ρ c e (Fin.castAdd 896 e) rfl l (hr e).1 (hr e).2)
    (fun j l => wk_pad m ρ c (Fin.natAdd 2000000 j) (Nat.le_add_right _ _) l) n l

/-- The kernel program's result: the layer's output, viewed as [8, 2000, 128]. -/
theorem result_eq (c : Dev nD)
    (hr : ∀ e : Fin 2000000, 0 ≤ (rels m c (ix1 e)).toInt ∧ (rels m c (ix1 e)).toInt < 2000) :
    (W16 m ρ c (Proc.devRef .tc main_v19) : Vec Ideal S8x2000x128 .f32)
      = shapeCast S8x2000x128
          (out16 (tailIds m c) (headIds m c) (msg (rels m c) (wts m c) (feats m c) (wmat m c) (bias m c)))
          shapeCasts_S16000x128_S8x2000x128 := by
  rw [v19_eq, v18_eq, v17_eq]
  refine congrArg (fun t => shapeCast S8x2000x128 t shapeCasts_S16000x128_S8x2000x128) ?_
  funext i
  obtain ⟨n, l, rfl⟩ : ∃ (n : Fin 16000) (l : Fin 128), i = ix2 n l := ⟨i 0, i 1, eq_ix2 i⟩
  rw [maximumf_apply, addf_apply, tailSum_apply m ρ c hr n l, headSum_apply m ρ c hr n l, zeros_eq, out16_apply]
  rfl

end Cert.KernelIdeal.Result

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.RefMsg.lean ====
/-
  The reference's message of an edge: gather the relation's feature row, map it affinely, scale by the edge's weight.
-/
import proofs.«412785_j52896817218000_3_alg».proof.Proof.Gen.ReferenceIdeal.Read
import proofs.«412785_j52896817218000_3_alg».proof.Proof.Spec
import proofs.«412785_j52896817218000_3_alg».proof.Proof.LibGather
import proofs.«412785_j52896817218000_3_alg».proof.Proof.LibMatProd

noncomputable section

namespace Cert.Msg

open Idealize.ShloMosaic Idealize.ShloMosaic.ValueIdx Cert.ReferenceIdeal

/-- The start index the gather reads for edge `e` is the relation id itself once it is not negative: the signed
    comparison with zero fails, so the select keeps the id and does not add the table's height. -/
theorem start_eq (x3 : (⟨S2000000, .i32⟩ : BufTy).Contents (Elt Ideal)) (e : Fin 2000000)
    (h0 : 0 ≤ (x3 (ix1 e)).toInt) :
    Cert.ReferenceIdeal.Read.val_main_v5 (F := Ideal) x3 (StableHlo.Predicate.ixP e) = x3 (ix1 e) := by
  have hi : Read.idx_main_v5 (StableHlo.Predicate.ixP e) = ix1 e :=
    funext fun a => Fin.ext (by match a with | ⟨0, _⟩ => rfl)
  rw [Read.val_main_v5_apply, hi, Read.val_main_v4_apply, Read.val_main_v1_apply, Read.val_main_v0_apply,
    Read.val_main_c_apply]
  have hc : IntOp.cmpi .slt (x3 (ix1 e)) 0#32 = 0#1 := by
    apply eq_zero_of_ne_one
    intro h
    rw [IntOp.cmpi_slt] at h
    have hz : (0#32 : BitVec 32).toInt = 0 := by decide
    omega
  rw [hc, select_zero]

/-- The gathered feature rows at edge `e`, column `k`: the table's row named by the edge's relation id. -/
theorem gather_eq [Cert.ReferenceIdeal.Facts] (x3 : (⟨S2000000, .i32⟩ : BufTy).Contents (Elt Ideal))
    (x5 : (⟨S2000x128, .f32⟩ : BufTy).Contents (Elt Ideal)) (e : Fin 2000000) (k : Fin 128)
    (h0 : 0 ≤ (x3 (ix1 e)).toInt) :
    Cert.ReferenceIdeal.Read.val_main_v6 (F := Ideal) x3 x5 (ix2 e k) = x5 (ix2 (row (x3 (ix1 e))) k) := by
  unfold Read.val_main_v6
  have hd : gather_S2000x128_S2000000x1_S2000000x128_1_0_n_n_0_1_1128
      = Cert.LibGather.rowGatherDims 2000 2000000 128
          Facts₀.gather_S2000x128_S2000000x1_S2000000x128_1_0_n_n_0_1_1128_wf := rfl
  rw [hd, Cert.LibGather.gather_rows_apply (by decide)]
  simp only [start_eq x3 e h0]
  rfl

/-- The reference's weighted edge rows, at edge `e` and column `l`, are the edge's message, once the relation id is
    not negative (a negative id would be wrapped around first). -/
theorem ref_msg [Cert.ReferenceIdeal.Facts]
    (x3 : (⟨S2000000, .i32⟩ : BufTy).Contents (Elt Ideal)) (x4 : (⟨S2000000, .f32⟩ : BufTy).Contents (Elt Ideal))
    (x5 : (⟨S2000x128, .f32⟩ : BufTy).Contents (Elt Ideal)) (x6 : (⟨S128x128, .f32⟩ : BufTy).Contents (Elt Ideal))
    (x7 : (⟨S128, .f32⟩ : BufTy).Contents (Elt Ideal)) (e : Fin 2000000) (l : Fin 128)
    (h0 : 0 ≤ (x3 (ix1 e)).toInt) :
    Cert.ReferenceIdeal.Read.val_main_v14 (F := Ideal) x3 x4 x5 x6 x7 (ix2 e l) = msg x3 x4 x5 x6 x7 e l := by
  have hw : Read.idx_main_v12 (Read.idx_main_v13 (ix2 e l)) = ix1 e :=
    funext fun a => Fin.ext (by match a with | ⟨0, _⟩ => rfl)
  have hb : Read.idx_main_v9 (Read.idx_main_v10 (ix2 e l)) = ix1 l :=
    funext fun a => Fin.ext (by match a with | ⟨0, _⟩ => rfl)
  have hl : ∀ k : Fin 128, Read.lidx_main_v8 (ix2 e l) k = ix2 e k := fun k =>
    funext fun a => Fin.ext (by match a with | ⟨0, _⟩ => rfl | ⟨1, _⟩ => rfl)
  have hr : ∀ k : Fin 128, Read.idx_main_v7 (Read.ridx_main_v8 (ix2 e l) k) = ix2 l k := fun k =>
    funext fun a => Fin.ext (by match a with | ⟨0, _⟩ => rfl | ⟨1, _⟩ => rfl)
  rw [Read.val_main_v14_apply, Read.val_main_v13_apply, Read.val_main_v12_apply, Read.val_main_v11_apply,
    Read.val_main_v10_apply, Read.val_main_v9_apply, Read.val_main_v8_apply]
  simp only [Read.val_main_v7_apply, hl, hr, hw, hb, gather_eq x3 x5 e _ h0, Ideal.mulf_def, Ideal.addf_def]
  rfl

end Cert.Msg

end
-- ==== Proof.RefValue.lean ====
/-
  The reference program's result as the layer's output.

  The reference scales each edge's mapped feature row by the edge's weight (the edge's message, once its relation id is
  not negative), takes the segment sums of those rows by the tail ids and by the head ids from zero, adds them, clips
  below at zero, and views the result as [8, 2000, 128].
-/
import proofs.«412785_j52896817218000_3_alg».proof.Proof.Gen.ReferenceIdeal.Read
import proofs.«412785_j52896817218000_3_alg».proof.Proof.RefMsg
import proofs.«412785_j52896817218000_3_alg».proof.Proof.Bridge
import Idealize.ShloMosaic.Lib.StableHlo.Predicate

noncomputable section

open Idealize.ShloMosaic Idealize.ShloMosaic.ValueIdx Idealize.ShloMosaic.StableHlo.Predicate

namespace Cert.ReferenceIdeal.Result

open Cert.ReferenceIdeal Cert.ReferenceIdeal.Gen Cert.ReferenceIdeal.Read Cert.Msg

/-- The zero arrays the reference broadcasts are the zero array of the specification. -/
theorem zeros15_eq : (val_main_v15 (F := Ideal) : Vec Ideal S16000x128 .f32) = zeros := funext fun _ => rfl
theorem zeros18_eq : (val_main_v18 (F := Ideal) : Vec Ideal S16000x128 .f32) = zeros := funext fun _ => rfl
theorem zerosRelu_eq : (val_main_call0_v0 (F := Ideal) : Vec Ideal S16000x128 .f32) = zeros := funext fun _ => rfl

/-- A slot-id vector as a column, at an edge. -/
theorem col_edge (ids : IVec S2000000 32) (e : Fin 2000000) :
    (broadcastInDim S2000000x1 ![0] bcast_S2000000_S2000000x1_0 ids) (ixP e) = ids (ix1 e) :=
  (bcast_col1 bcast_S2000000_S2000000x1_0 ids e).trans (congrArg ids (ofFin_eq_ix1 e))

/-- The segment sum by the tail ids, entry by entry. -/
theorem tailSum_apply (x2 x3 : IVec S2000000 32) (x4 : FVec Ideal S2000000 .f32) (x5 : FVec Ideal S2000x128 .f32)
    (x6 : FVec Ideal S128x128 .f32) (x7 : FVec Ideal S128 .f32) (h0 : ∀ e : Fin 2000000, 0 ≤ (x3 (ix1 e)).toInt)
    (n : Fin 16000) (l : Fin 128) :
    val_main_v17 (F := Ideal) x2 x3 x4 x5 x6 x7 (ix2 n l) = zeros (ix2 n l) + received x2 (msg x3 x4 x5 x6 x7) n l := by
  unfold val_main_v17 val_main_v16
  rw [zeros15_eq]
  exact seg_apply scatter_S16000x128_S2000000x1_S2000000x128_1_0_0_1.wf rfl zeros x2 _ (msg x3 x4 x5 x6 x7) _
    (fun e => col_edge x2 e) (fun e l => ref_msg x3 x4 x5 x6 x7 e l (h0 e)) n l

/-- The segment sum by the head ids, entry by entry. -/
theorem headSum_apply (x1 x3 : IVec S2000000 32) (x4 : FVec Ideal S2000000 .f32) (x5 : FVec Ideal S2000x128 .f32)
    (x6 : FVec Ideal S128x128 .f32) (x7 : FVec Ideal S128 .f32) (h0 : ∀ e : Fin 2000000, 0 ≤ (x3 (ix1 e)).toInt)
    (n : Fin 16000) (l : Fin 128) :
    val_main_v20 (F := Ideal) x1 x3 x4 x5 x6 x7 (ix2 n l) = zeros (ix2 n l) + received x1 (msg x3 x4 x5 x6 x7) n l := by
  unfold val_main_v20 val_main_v19
  rw [zeros18_eq]
  exact seg_apply scatter_S16000x128_S2000000x1_S2000000x128_1_0_0_1.wf rfl zeros x1 _ (msg x3 x4 x5 x6 x7) _
    (fun e => col_edge x1 e) (fun e l => ref_msg x3 x4 x5 x6 x7 e l (h0 e)) n l

/-- The reference program's result: the layer's output, viewed as [8, 2000, 128]. -/
theorem result_eq (x1 x2 x3 : IVec S2000000 32) (x4 : FVec Ideal S2000000 .f32) (x5 : FVec Ideal S2000x128 .f32)
    (x6 : FVec Ideal S128x128 .f32) (x7 : FVec Ideal S128 .f32) (h0 : ∀ e : Fin 2000000, 0 ≤ (x3 (ix1 e)).toInt) :
    val_main_v23 (F := Ideal) x1 x2 x3 x4 x5 x6 x7
      = shapeCast S8x2000x128 (out16 x2 x1 (msg x3 x4 x5 x6 x7)) shapeCasts_S16000x128_S8x2000x128 := by
  unfold val_main_v23
  refine congrArg (fun t => shapeCast S8x2000x128 t shapeCasts_S16000x128_S8x2000x128) ?_
  funext i
  obtain ⟨n, l, rfl⟩ : ∃ (n : Fin 16000) (l : Fin 128), i = ix2 n l := ⟨i 0, i 1, eq_ix2 i⟩
  unfold val_main_v22 val_main_v21
  rw [maximumf_apply, addf_apply, tailSum_apply x2 x3 x4 x5 x6 x7 h0 n l, headSum_apply x1 x3 x4 x5 x6 x7 h0 n l,
    zerosRelu_eq, out16_apply]
  rfl

end Cert.ReferenceIdeal.Result

end
-- ==== Proof.lean ====
/-
  The certificate of a message-passing layer: the kernel program and its reference compute the same function on the
  extended reals when every relation id is a row number of the relation table.

  Each edge carries a relation id, a weight, a head slot and a tail slot. The layer maps relation `r`'s feature row
  affinely, `lin r = (features r) · Wᵀ + b`; edge `e` sends `lin (relation of e) · weight e` to both of its slots; a slot's
  value is what it receives over tails plus what it receives over heads, clipped below at zero.

  The reference gathers the feature row per edge and maps it. The kernel program maps the whole table once (first
  kernel), picks the mapped row per edge by a sum against a 0/1 indicator row and scales it (second kernel), over edges
  padded with 896 zero-weight lanes, and leaves the two segment sums to the host. A product with a zero factor is zero
  on the extended reals whatever the other factor, so the indicator sum is exactly the picked row and a padding lane sends
  nothing; no finiteness of the inputs is needed. The one thing needed is that the relation ids name rows of the table:
  outside `[0, 2000)` the reference wraps or clamps the id to a row while the indicator row is all zeros.

  The modules: Spec (the mathematics), PreRange (the ids' range from the precondition), RefMsg and RefValue (the
  reference's result is the layer's output), KernelPay and KernelGather (the two kernel bodies entry by entry),
  KernelArrays (the kernels' output arrays), KernelHost (the host operations around them), KernelRun (the run with the
  result buffer kept), KernelValue (the kernel program's result is the layer's output), Bridge (padded segment sums).
-/
import proofs.«412785_j52896817218000_3_alg».proof.Defs
import proofs.«412785_j52896817218000_3_alg».proof.Proof.Gen.Kernel
import proofs.«412785_j52896817218000_3_alg».proof.Proof.Gen.Kernel.Skeleton
import proofs.«412785_j52896817218000_3_alg».proof.Proof.Gen.Kernel.Launch
import proofs.«412785_j52896817218000_3_alg».proof.Proof.Gen.Kernel.Points
import proofs.«412785_j52896817218000_3_alg».proof.Proof.Gen.Kernel.Frame
import proofs.«412785_j52896817218000_3_alg».proof.Proof.Gen.KernelIdeal
import proofs.«412785_j52896817218000_3_alg».proof.Proof.Gen.KernelIdeal.Skeleton
import proofs.«412785_j52896817218000_3_alg».proof.Proof.Gen.KernelIdeal.Launch
import proofs.«412785_j52896817218000_3_alg».proof.Proof.Gen.KernelIdeal.Points
import proofs.«412785_j52896817218000_3_alg».proof.Proof.Gen.KernelIdeal.Frame
import proofs.«412785_j52896817218000_3_alg».proof.Proof.Gen.ReferenceIdeal
import proofs.«412785_j52896817218000_3_alg».proof.Proof.Gen.ReferenceIdeal.Run
import proofs.«412785_j52896817218000_3_alg».proof.Proof.Gen.ReferenceIdeal.Read
import proofs.«412785_j52896817218000_3_alg».proof.Proof.Gen.Pre_finite_inputs
import proofs.«412785_j52896817218000_3_alg».proof.Proof.PreRange
import proofs.«412785_j52896817218000_3_alg».proof.Proof.KernelRun
import proofs.«412785_j52896817218000_3_alg».proof.Proof.KernelValue
import proofs.«412785_j52896817218000_3_alg».proof.Proof.RefValue
import Idealize.ShloMosaic.Adequacy
import Idealize.ShloMosaic.Init

noncomputable section

namespace Cert.Proof

open Idealize.ShloMosaic Idealize.ShloMosaic.ValueIdx Idealize.SL.Sem

/-- The two kernel programs run and leave their arguments alone: the generated frames. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments alone: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer's output of the launched arrays. -/
theorem algebraic : Cert.algebraic_KernelIdeal_ReferenceIdeal := by
  intro m ρ m' ρ' hpre hagree
  have hr : ∀ (c : Dev Cert.KernelIdeal.nD) (e : Fin 2000000),
      0 ≤ (Cert.KernelIdeal.Result.rels m c (ix1 e)).toInt ∧ (Cert.KernelIdeal.Result.rels m c (ix1 e)).toInt < 2000 :=
    fun c e => Cert.Msg.rels_range _ _ _ _ _ _ _ _ (hpre c) e
  refine ⟨fun c => shapeCast Cert.KernelIdeal.S8x2000x128
      (Cert.Msg.out16 (Cert.KernelIdeal.Result.tailIds m c) (Cert.KernelIdeal.Result.headIds m c)
        (Cert.Msg.msg (Cert.KernelIdeal.Result.rels m c) (Cert.KernelIdeal.Result.wts m c) (Cert.KernelIdeal.Result.feats m c)
          (Cert.KernelIdeal.Result.wmat m c) (Cert.KernelIdeal.Result.bias m c)))
      Cert.KernelIdeal.Gen.shapeCasts_S16000x128_S8x2000x128, ?_, ?_⟩
  · exact (θ_run Cert.KernelIdeal.defs _ _).mono
      (fun r h c => ⟨(h c).1.trans (Cert.KernelIdeal.Result.result_eq m ρ c (hr c)), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨-, a1, a2, a3, a4, a5, a6, a7⟩ := hagree c
    refine ((h c).1.trans (Cert.ReferenceIdeal.Read.val_main_v23_eq _ _ _ _ _ _ _)).trans ?_
    rw [a1, a2, a3, a4, a5, a6, a7]
    exact Cert.ReferenceIdeal.Result.result_eq _ _ _ _ _ _ _ (fun e => (hr c e).1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
